-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S100000x512 .f32) (main_arg1 : FVec F S512x512 .f32) (main_arg2 : FVec F S512 .f32) (main_arg3 : FVec F S512x768 .f32) (main_arg4 : FVec F S768 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_v13 main_v16
-- ==== Kernel.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S1x512 : Shape := ⟨2, ![1, 512]⟩
abbrev S1x768 : Shape := ⟨2, ![1, 768]⟩
abbrev S100000x768 : Shape := ⟨2, ![100000, 768]⟩
abbrev S1000x512 : Shape := ⟨2, ![1000, 512]⟩
abbrev S1000x768 : Shape := ⟨2, ![1000, 768]⟩

abbrev nBuf : Space → Nat
  | .hbm => 8
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S1x512, .f32⟩
  | .hbm, ⟨6, _⟩ => ⟨S1x768, .f32⟩
  | .hbm, ⟨7, _⟩ => ⟨S100000x768, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S512x768, .f32⟩
  | .local _ .vmem, ⟨5, _⟩ => ⟨S1x768, .f32⟩
  | .local _ .vmem, ⟨6, _⟩ => ⟨S1000x768, .f32⟩
  | .local _ .vmem, ⟨7, _⟩ => ⟨S1000x768, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S768_S1x768 : S768.ShapeCasts S1x768
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x768_S512x768_0_0 : ∀ a, (![0, 0] : Fin 2 → Nat) a + S512x768.size a ≤ S512x768.size a
  h_S512x768 : 0 < S512x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  inb_S1000x768_S1000x768_0_0 : ∀ a, (![0, 0] : Fin 2 → Nat) a + S1000x768.size a ≤ S1000x768.size a
  h_S1000x768 : 0 < S1000x768.numel
  dot_S1000x512_S512x512_S1000x512_1_0_0_1_n_n_wf : DotDims.WF S1000x512 S512x512 S1000x512 [1] [0] [0] [1] [] []
  dot_S1000x512_S512x768_S1000x768_1_0_0_1_n_n_wf : DotDims.WF S1000x512 S512x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S512x768.size a
  hwx0_3 : ∀ i : grid0.Coords, EltTy.bits .f32 = 32 ∨ (Rect.block (s := S512x768) S512x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x768.size a ≤ S100000x768.size a
  hwx0_5 : ∀ i : grid0.Coords, EltTy.bits .f32 = 32 ∨ (Rect.block (s := S100000x768) S1000x768.size (cc0_transform_5 i) (hinb0_5 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x768_S1000x768_1_0_0_1_n_n : DotDims S1000x512 S512x768 S1000x768 where
  lhsContracting := [1]
  rhsContracting := [0]
  lhsNonContracting := [0]
  rhsNonContracting := [1]
  lhsBatch := []
  rhsBatch := []
  wf := dot_S1000x512_S512x768_S1000x768_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S1x512 : Shape := ⟨2, ![1, 512]⟩
abbrev S_ : Shape := ⟨0, ![]⟩
abbrev S100000x768 : Shape := ⟨2, ![100000, 768]⟩
abbrev S1x768 : Shape := ⟨2, ![1, 768]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S100000x512, .f32⟩
  | .hbm, ⟨6, _⟩ => ⟨S1x512, .f32⟩
  | .hbm, ⟨7, _⟩ => ⟨S100000x512, .f32⟩
  | .hbm, ⟨8, _⟩ => ⟨S100000x512, .f32⟩
  | .hbm, ⟨9, _⟩ => ⟨S_, .f32⟩
  | .hbm, ⟨10, _⟩ => ⟨S_, .f32⟩
  | .hbm, ⟨11, _⟩ => ⟨S100000x512, .f32⟩
  | .hbm, ⟨12, _⟩ => ⟨S100000x512, .i1⟩
  | .hbm, ⟨13, _⟩ => ⟨S_, .f32⟩
  | .hbm, ⟨14, _⟩ => ⟨S100000x512, .f32⟩
  | .hbm, ⟨15, _⟩ => ⟨S100000x512, .f32⟩
  | .hbm, ⟨16, _⟩ => ⟨S100000x512, .f32⟩
  | .hbm, ⟨17, _⟩ => ⟨S100000x768, .f32⟩
  | .hbm, ⟨18, _⟩ => ⟨S1x768, .f32⟩
  | .hbm, ⟨19, _⟩ => ⟨S100000x768, .f32⟩
  | .hbm, ⟨20, _⟩ => ⟨S100000x768, .f32⟩
  | .hbm, ⟨21, _⟩ => ⟨S100000x768, .f32⟩
  | .hbm, ⟨22, _⟩ => ⟨S100000x768, .f32⟩
  | .hbm, ⟨23, _⟩ => ⟨S_, .f32⟩
  | .hbm, ⟨24, _⟩ => ⟨S100000x768, .f32⟩
  | .hbm, ⟨25, _⟩ => ⟨S100000x768, .f32⟩
  | .hbm, ⟨26, _⟩ => ⟨S_, .f32⟩
  | .hbm, ⟨27, _⟩ => ⟨S100000x768, .f32⟩
  | .hbm, ⟨28, _⟩ => ⟨S100000x768, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  bcast_S_S100000x768 : S_.BroadcastsInDim S100000x768 (![] : Fin 0 → Fin S100000x768.rank)
  dot_S100000x512_S512x512_S100000x512_1_0_0_1_n_n_wf : DotDims.WF S100000x512 S512x512 S100000x512 [1] [0] [0] [1] [] []
  dot_S100000x512_S512x768_S100000x768_1_0_0_1_n_n_wf : DotDims.WF S100000x512 S512x768 S100000x768 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x768_S100000x768_1_0_0_1_n_n : DotDims S100000x512 S512x768 S100000x768 where
  lhsContracting := [1]
  rhsContracting := [0]
  lhsNonContracting := [0]
  rhsNonContracting := [1]
  lhsBatch := []
  rhsBatch := []
  wf := dot_S100000x512_S512x768_S100000x768_1_0_0_1_n_n_wf

class Facts : Prop extends Facts₀ where

variable [Facts]
-- ==== Proof.Spec.lean ====
/-
  A two-layer perceptron with a leaky rectifier between the layers and a logistic output, read at the
  extended reals, one output entry at a time.

  For a row x of 512 inputs, weights W₁ (512 × 512), W₂ (512 × 768) and biases b₁, b₂, the entry q of the row's
  output is

      σ( Σ_j  ℓ( Σ_k x_k · W₁[k, j] + b₁[j] ) · W₂[j, q]  +  b₂[q] ),

  where ℓ(h) = h if h ≥ 0 and c · h otherwise (c the single-precision word nearest 1/100, the same word in both
  programs, never evaluated), and σ(o) = 1 / (1 + e^(-o)) with the extended reals' corners.

  Two arrangements of this one function are read here at an index. The first computes a block of M rows at once:
  two block products into zero accumulators, each bias a one-row matrix broadcast down the rows, the logistic as
  one operation. The second is the same over all rows with host operations: two general dot products, each bias
  broadcast in two steps, the logistic spelt as negate, exponential, add one, divide one by it. Both reduce, entry
  by entry, to the row function above: a block product and a general dot product with one contracted axis are the
  same finite sum once the contraction index is renamed by its one coordinate; every other operation acts entry
  by entry. No law of arithmetic beyond that renaming is used, so nothing here asks the inputs to be finite.
-/
import Idealize.ShloMosaic.PureOps.Ideal.Laws
import Idealize.ShloMosaic.Lib.ValueIdx
import Idealize.ShloMosaic.Lib.ValueLayout

noncomputable section

open scoped BigOperators

namespace Cert.Mlp

open Idealize.ShloMosaic Idealize.ShloMosaic.ValueIdx

/-! ## A plain matrix product's contraction, re-indexed by its one coordinate -/

/-- In an M × K by K × N product, the left operand is read at (row of the output entry, contraction coordinate). -/
theorem plain_lhs (M K N : Nat) (p : Fin M) (q : Fin N) (k : Fin K) :
    (DotDims.plain M K N).lhsIdx (ix2 p q) ((contrEquiv1 (DotDims.plain M K N) K rfl rfl).symm k) = ix2 p k := by
  funext a; apply Fin.ext
  match a with
  | ⟨0, _⟩ => rfl
  | ⟨1, _⟩ =>
    exact ((DotDims.plain M K N).lhsIdx_val_of_single (cl := 1) rfl (ix2 p q) _).trans
      (contrEquiv1_symm_val (DotDims.plain M K N) K rfl rfl k)

/-- The right operand is read at (contraction coordinate, column of the output entry). -/
theorem plain_rhs (M K N : Nat) (p : Fin M) (q : Fin N) (k : Fin K) :
    (DotDims.plain M K N).rhsIdx (ix2 p q) ((contrEquiv1 (DotDims.plain M K N) K rfl rfl).symm k) = ix2 k q := by
  funext a; apply Fin.ext
  match a with
  | ⟨0, _⟩ =>
    exact ((DotDims.plain M K N).rhsIdx_val_of_single (cr := 0) rfl (ix2 p q) _).trans
      (contrEquiv1_symm_val (DotDims.plain M K N) K rfl rfl k)
  | ⟨1, _⟩ => rfl

/-- So the sum over the contraction index is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ kk : (DotDims.plain M K N).contr.Idx,
        l ((DotDims.plain M K N).lhsIdx (ix2 p q) kk) * r ((DotDims.plain M K N).rhsIdx (ix2 p q) kk)
      = ∑ k : Fin K, l (ix2 p k) * r (ix2 k q) := by
  rw [← Equiv.sum_comp (contrEquiv1 (DotDims.plain M K N) K rfl rfl).symm]
  exact Finset.sum_congr rfl fun k _ => by rw [plain_lhs, plain_rhs]

/-- A block product into a zero accumulator, at entry (p, q). -/
theorem matmul_plain_apply (M K N : Nat) {φ₁ φ₂ : FTy} (l : FVec Ideal ⟨2, ![M, K]⟩ φ₁) (r : FVec Ideal ⟨2, ![K, N]⟩ φ₂)
    (p : Fin M) (q : Fin N) :
    matmul (DotDims.plain M K N) none l r (constant ⟨2, ![M, N]⟩ .f32 0x00000000#32) (ix2 p q)
      = ∑ k : Fin K, l (ix2 p k) * r (ix2 k q) :=
  (Ideal.matmul_constant_zero_apply (DotDims.plain M K N) none l r (ix2 p q)).trans (plain_sum M K N l r p q)

/-- A general dot product with the same dimension numbers, at entry (p, q): the same sum. -/
theorem dotGeneral_plain_apply (M K N : Nat) {φ₁ φ₂ : FTy} (l : FVec Ideal ⟨2, ![M, K]⟩ φ₁) (r : FVec Ideal ⟨2, ![K, N]⟩ φ₂)
    (p : Fin M) (q : Fin N) :
    Host.dotGeneral (DotDims.plain M K N) none l r (ix2 p q) = ∑ k : Fin K, l (ix2 p k) * r (ix2 k q) :=
  (Ideal.dotGeneral_apply (DotDims.plain M K N) none .single l r (ix2 p q)).trans (plain_sum M K N l r p q)

/-! ## The row function -/

/-- The leaky rectifier on an extended real: h where h ≥ 0, the slope word times h elsewhere. -/
def leaky (h : EReal) : EReal :=
  Scalar.select (FloatOps.cmpf (F := Ideal) (φ := .f32) .oge h (FloatOps.ofBits (F := Ideal) .f32 0x00000000#32)) h
    (FloatOps.ofBits (F := Ideal) .f32 0x3C23D70A#32 * h)

/-- Entry j of the hidden layer before the rectifier. -/
def hidden (xr : Fin 512 → EReal) (W1 : Fin 512 → Fin 512 → EReal) (b1 : Fin 512 → EReal) (j : Fin 512) : EReal :=
  (∑ k : Fin 512, xr k * W1 k j) + b1 j

/-- Entry q of the output for the input row xr. -/
def row (xr : Fin 512 → EReal) (W1 : Fin 512 → Fin 512 → EReal) (b1 : Fin 512 → EReal)
    (W2 : Fin 512 → Fin 768 → EReal) (b2 : Fin 768 → EReal) (q : Fin 768) : EReal :=
  Ideal.logistic ((∑ j : Fin 512, leaky (hidden xr W1 b1 j) * W2 j q) + b2 q)

/-- The logistic of a vector, entry by entry, is the extended reals' logistic. -/
theorem logistic_apply {s : Shape} {φ : FTy} (a : FVec Ideal s φ) (i : s.Idx) : logistic a i = Ideal.logistic (a i) := rfl

/-! ## The blocked arrangement -/

/-- The hidden layer of a block of M rows, before the rectifier: the block product plus the bias row broadcast. -/
def blockHidden (M : Nat) (x0 : FVec Ideal ⟨2, ![M, 512]⟩ .f32) (x1 : FVec Ideal ⟨2, ![512, 512]⟩ .f32)
    (x2 : FVec Ideal ⟨2, ![1, 512]⟩ .f32) (hlt : FTy.bits .bf16 < FTy.bits .f32)
    (hc1 : (⟨2, ![1, 512]⟩ : Shape).ShapeCasts ⟨2, ![1, 512]⟩)
    (hb1 : (⟨2, ![1, 512]⟩ : Shape).Broadcasts ⟨2, ![M, 512]⟩) : FVec Ideal ⟨2, ![M, 512]⟩ .f32 :=
  addf (matmul (DotDims.plain M 512 512) none (truncf .bf16 x0 hlt) (truncf .bf16 x1 hlt)
      (constant ⟨2, ![M, 512]⟩ .f32 0x00000000#32))
    (broadcastTo ⟨2, ![M, 512]⟩ (shapeCast ⟨2, ![1, 512]⟩ x2 hc1) hb1)

theorem blockHidden_apply (M : Nat) (x0 : FVec Ideal ⟨2, ![M, 512]⟩ .f32) (x1 : FVec Ideal ⟨2, ![512, 512]⟩ .f32)
    (x2 : FVec Ideal ⟨2, ![1, 512]⟩ .f32) (hlt : FTy.bits .bf16 < FTy.bits .f32)
    (hc1 : (⟨2, ![1, 512]⟩ : Shape).ShapeCasts ⟨2, ![1, 512]⟩)
    (hb1 : (⟨2, ![1, 512]⟩ : Shape).Broadcasts ⟨2, ![M, 512]⟩) (p : Fin M) (j : Fin 512) :
    blockHidden M x0 x1 x2 hlt hc1 hb1 (ix2 p j)
      = hidden (fun k => x0 (ix2 p k)) (fun k j => x1 (ix2 k j)) (fun j => x2 (ix2 (0 : Fin 1) j)) j := by
  unfold blockHidden
  show matmul (DotDims.plain M 512 512) none (truncf .bf16 x0 hlt) (truncf .bf16 x1 hlt)
      (constant ⟨2, ![M, 512]⟩ .f32 0x00000000#32) (ix2 p j)
    + broadcastTo ⟨2, ![M, 512]⟩ (shapeCast ⟨2, ![1, 512]⟩ x2 hc1) hb1 (ix2 p j) = _
  rw [matmul_plain_apply, broadcastTo_1b_ab_apply, shapeCast_self]
  rfl

/-- A block of M output rows: rectifier, second block product, bias row, logistic. -/
def blockOut (M : Nat) (x0 : FVec Ideal ⟨2, ![M, 512]⟩ .f32) (x1 : FVec Ideal ⟨2, ![512, 512]⟩ .f32)
    (x2 : FVec Ideal ⟨2, ![1, 512]⟩ .f32) (x3 : FVec Ideal ⟨2, ![512, 768]⟩ .f32) (x4 : FVec Ideal ⟨2, ![1, 768]⟩ .f32)
    (hlt : FTy.bits .bf16 < FTy.bits .f32)
    (hc1 : (⟨2, ![1, 512]⟩ : Shape).ShapeCasts ⟨2, ![1, 512]⟩)
    (hb1 : (⟨2, ![1, 512]⟩ : Shape).Broadcasts ⟨2, ![M, 512]⟩)
    (hc2 : (⟨2, ![1, 768]⟩ : Shape).ShapeCasts ⟨2, ![1, 768]⟩)
    (hb2 : (⟨2, ![1, 768]⟩ : Shape).Broadcasts ⟨2, ![M, 768]⟩) : FVec Ideal ⟨2, ![M, 768]⟩ .f32 :=
  logistic (addf
    (matmul (DotDims.plain M 512 768) none
      (truncf .bf16
        (select (cmpf .oge (blockHidden M x0 x1 x2 hlt hc1 hb1) (broadcast ⟨2, ![M, 512]⟩ (Scalar.ofBits .f32 0x00000000#32)))
          (blockHidden M x0 x1 x2 hlt hc1 hb1)
          (mulf (broadcast ⟨2, ![M, 512]⟩ (Scalar.ofBits .f32 0x3C23D70A#32)) (blockHidden M x0 x1 x2 hlt hc1 hb1))) hlt)
      (truncf .bf16 x3 hlt) (constant ⟨2, ![M, 768]⟩ .f32 0x00000000#32))
    (broadcastTo ⟨2, ![M, 768]⟩ (shapeCast ⟨2, ![1, 768]⟩ x4 hc2) hb2))

/-- Entry (p, q) of the block is the row function of the block's row p. -/
theorem blockOut_apply (M : Nat) (x0 : FVec Ideal ⟨2, ![M, 512]⟩ .f32) (x1 : FVec Ideal ⟨2, ![512, 512]⟩ .f32)
    (x2 : FVec Ideal ⟨2, ![1, 512]⟩ .f32) (x3 : FVec Ideal ⟨2, ![512, 768]⟩ .f32) (x4 : FVec Ideal ⟨2, ![1, 768]⟩ .f32)
    (hlt : FTy.bits .bf16 < FTy.bits .f32)
    (hc1 : (⟨2, ![1, 512]⟩ : Shape).ShapeCasts ⟨2, ![1, 512]⟩)
    (hb1 : (⟨2, ![1, 512]⟩ : Shape).Broadcasts ⟨2, ![M, 512]⟩)
    (hc2 : (⟨2, ![1, 768]⟩ : Shape).ShapeCasts ⟨2, ![1, 768]⟩)
    (hb2 : (⟨2, ![1, 768]⟩ : Shape).Broadcasts ⟨2, ![M, 768]⟩) (p : Fin M) (q : Fin 768) :
    blockOut M x0 x1 x2 x3 x4 hlt hc1 hb1 hc2 hb2 (ix2 p q)
      = row (fun k => x0 (ix2 p k)) (fun k j => x1 (ix2 k j)) (fun j => x2 (ix2 (0 : Fin 1) j))
          (fun j q => x3 (ix2 j q)) (fun q => x4 (ix2 (0 : Fin 1) q)) q := by
  unfold blockOut
  rw [logistic_apply, addf_apply, matmul_plain_apply, broadcastTo_1b_ab_apply, shapeCast_self]
  unfold row
  simp only [truncf_apply, select_apply, cmpf_apply, mulf_apply, broadcast_apply, blockHidden_apply, leaky]

/-! ## The arrangement over all rows, with host operations -/

section HostForms

variable {α : Type}

/-- A one-row matrix broadcast along both axes reads, at (p, c), its one row at c. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector broadcast to a one-row matrix reads, at (u, c), the vector at c. -/
theorem bcastLead_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end HostForms

/-- A scalar constant broadcast to any shape reads its value everywhere. -/
theorem bcastScalar_apply {a b : ℕ} {φ : FTy}
    (h : (⟨0, ![]⟩ : Shape).BroadcastsInDim ⟨2, ![a, b]⟩ (![] : Fin 0 → Fin 2))
    (w : BitVec φ.bits) (i : (⟨2, ![a, b]⟩ : Shape).Idx) :
    broadcastInDim ⟨2, ![a, b]⟩ ![] h (constant (F := Ideal) ⟨0, ![]⟩ φ w) i = FloatOps.ofBits (F := Ideal) φ w := rfl

theorem hostDivf_apply {s : Shape} {φ : FTy} (a b : FVec Ideal s φ) (i : s.Idx) :
    Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The single-precision word of 1.0 denotes the real 1. -/
theorem ofBits_one : FloatOps.ofBits (F := Ideal) .f32 0x3F800000#32 = (1 : EReal) := by
  show Ideal.ofBits .f32 0x3F800000#32 = 1
  simp [Ideal.ofBits, Ideal.ieee, -EReal.coe_mul]; norm_num

/-- The hidden layer of all M rows, before the rectifier: the dot product plus the bias broadcast in two steps. -/
def hostHidden (M : Nat) (x : FVec Ideal ⟨2, ![M, 512]⟩ .f32) (W1 : FVec Ideal ⟨2, ![512, 512]⟩ .f32)
    (b1 : FVec Ideal ⟨1, ![512]⟩ .f32)
    (h1 : (⟨1, ![512]⟩ : Shape).BroadcastsInDim ⟨2, ![1, 512]⟩ (![1] : Fin 1 → Fin 2))
    (h2 : (⟨2, ![1, 512]⟩ : Shape).BroadcastsInDim ⟨2, ![M, 512]⟩ (![0, 1] : Fin 2 → Fin 2)) :
    FVec Ideal ⟨2, ![M, 512]⟩ .f32 :=
  addf (Host.dotGeneral (DotDims.plain M 512 512) none x W1)
    (broadcastInDim ⟨2, ![M, 512]⟩ ![0, 1] h2 (broadcastInDim ⟨2, ![1, 512]⟩ ![1] h1 b1))

theorem hostHidden_apply (M : Nat) (x : FVec Ideal ⟨2, ![M, 512]⟩ .f32) (W1 : FVec Ideal ⟨2, ![512, 512]⟩ .f32)
    (b1 : FVec Ideal ⟨1, ![512]⟩ .f32)
    (h1 : (⟨1, ![512]⟩ : Shape).BroadcastsInDim ⟨2, ![1, 512]⟩ (![1] : Fin 1 → Fin 2))
    (h2 : (⟨2, ![1, 512]⟩ : Shape).BroadcastsInDim ⟨2, ![M, 512]⟩ (![0, 1] : Fin 2 → Fin 2)) (r : Fin M) (j : Fin 512) :
    hostHidden M x W1 b1 h1 h2 (ix2 r j)
      = hidden (fun k => x (ix2 r k)) (fun k j => W1 (ix2 k j)) (fun j => b1 (ix1 j)) j := by
  unfold hostHidden
  rw [addf_apply, dotGeneral_plain_apply, bcastRows_apply, bcastLead_apply]
  rfl

/-- All M output rows: rectifier (compare with zero, slope times, select), second layer, and the logistic spelt as
    negate, exponential, one plus, one over. -/
def hostOut (M : Nat) (x : FVec Ideal ⟨2, ![M, 512]⟩ .f32) (W1 : FVec Ideal ⟨2, ![512, 512]⟩ .f32)
    (b1 : FVec Ideal ⟨1, ![512]⟩ .f32) (W2 : FVec Ideal ⟨2, ![512, 768]⟩ .f32) (b2 : FVec Ideal ⟨1, ![768]⟩ .f32)
    (h1 : (⟨1, ![512]⟩ : Shape).BroadcastsInDim ⟨2, ![1, 512]⟩ (![1] : Fin 1 → Fin 2))
    (h2 : (⟨2, ![1, 512]⟩ : Shape).BroadcastsInDim ⟨2, ![M, 512]⟩ (![0, 1] : Fin 2 → Fin 2))
    (h3 : (⟨1, ![768]⟩ : Shape).BroadcastsInDim ⟨2, ![1, 768]⟩ (![1] : Fin 1 → Fin 2))
    (h4 : (⟨2, ![1, 768]⟩ : Shape).BroadcastsInDim ⟨2, ![M, 768]⟩ (![0, 1] : Fin 2 → Fin 2))
    (hs1 : (⟨0, ![]⟩ : Shape).BroadcastsInDim ⟨2, ![M, 512]⟩ (![] : Fin 0 → Fin 2))
    (hs2 : (⟨0, ![]⟩ : Shape).BroadcastsInDim ⟨2, ![M, 768]⟩ (![] : Fin 0 → Fin 2)) :
    FVec Ideal ⟨2, ![M, 768]⟩ .f32 :=
  Host.divf (broadcastInDim ⟨2, ![M, 768]⟩ ![] hs2 (constant ⟨0, ![]⟩ .f32 0x3F800000#32))
    (addf (broadcastInDim ⟨2, ![M, 768]⟩ ![] hs2 (constant ⟨0, ![]⟩ .f32 0x3F800000#32))
      (Host.exp (Host.negf (addf
        (Host.dotGeneral (DotDims.plain M 512 768) none
          (select
            (cmpf .oge (hostHidden M x W1 b1 h1 h2)
              (broadcastInDim ⟨2, ![M, 512]⟩ ![] hs1 (constant ⟨0, ![]⟩ .f32 0x00000000#32)))
            (hostHidden M x W1 b1 h1 h2)
            (mulf (broadcastInDim ⟨2, ![M, 512]⟩ ![] hs1 (id (constant ⟨0, ![]⟩ .f32 0x3C23D70A#32)))
              (hostHidden M x W1 b1 h1 h2)))
          W2)
        (broadcastInDim ⟨2, ![M, 768]⟩ ![0, 1] h4 (broadcastInDim ⟨2, ![1, 768]⟩ ![1] h3 b2))))))

/-- Entry (r, q) is the row function of row r: the spelt-out logistic is the extended reals' logistic by its
    definition, the word 1.0 being the real 1. -/
theorem hostOut_apply (M : Nat) (x : FVec Ideal ⟨2, ![M, 512]⟩ .f32) (W1 : FVec Ideal ⟨2, ![512, 512]⟩ .f32)
    (b1 : FVec Ideal ⟨1, ![512]⟩ .f32) (W2 : FVec Ideal ⟨2, ![512, 768]⟩ .f32) (b2 : FVec Ideal ⟨1, ![768]⟩ .f32)
    (h1 : (⟨1, ![512]⟩ : Shape).BroadcastsInDim ⟨2, ![1, 512]⟩ (![1] : Fin 1 → Fin 2))
    (h2 : (⟨2, ![1, 512]⟩ : Shape).BroadcastsInDim ⟨2, ![M, 512]⟩ (![0, 1] : Fin 2 → Fin 2))
    (h3 : (⟨1, ![768]⟩ : Shape).BroadcastsInDim ⟨2, ![1, 768]⟩ (![1] : Fin 1 → Fin 2))
    (h4 : (⟨2, ![1, 768]⟩ : Shape).BroadcastsInDim ⟨2, ![M, 768]⟩ (![0, 1] : Fin 2 → Fin 2))
    (hs1 : (⟨0, ![]⟩ : Shape).BroadcastsInDim ⟨2, ![M, 512]⟩ (![] : Fin 0 → Fin 2))
    (hs2 : (⟨0, ![]⟩ : Shape).BroadcastsInDim ⟨2, ![M, 768]⟩ (![] : Fin 0 → Fin 2)) (r : Fin M) (q : Fin 768) :
    hostOut M x W1 b1 W2 b2 h1 h2 h3 h4 hs1 hs2 (ix2 r q)
      = row (fun k => x (ix2 r k)) (fun k j => W1 (ix2 k j)) (fun j => b1 (ix1 j))
          (fun j q => W2 (ix2 j q)) (fun q => b2 (ix1 q)) q := by
  unfold hostOut
  rw [hostDivf_apply, addf_apply, hostExp_apply, hostNegf_apply, addf_apply, dotGeneral_plain_apply,
    bcastRows_apply, bcastLead_apply, bcastScalar_apply, ofBits_one]
  unfold row Ideal.logistic
  simp only [select_apply, cmpf_apply, mulf_apply, hostHidden_apply, id_eq, leaky]
  rfl

/-! ## The whole array -/

/-- The output array of N rows as one function of the five argument arrays: entry (r, q) is the row function of
    row r of the input. -/
def arrayOut (N : Nat) (x : (⟨2, ![N, 512]⟩ : Shape).Idx → EReal) (W1 : (⟨2, ![512, 512]⟩ : Shape).Idx → EReal)
    (b1 : (⟨1, ![512]⟩ : Shape).Idx → EReal) (W2 : (⟨2, ![512, 768]⟩ : Shape).Idx → EReal)
    (b2 : (⟨1, ![768]⟩ : Shape).Idx → EReal) : (⟨2, ![N, 768]⟩ : Shape).Idx → EReal :=
  fun i => row (fun k => x (ix2 (n0 := N) (n1 := 512) (i 0) k)) (fun k j => W1 (ix2 k j)) (fun j => b1 (ix1 j))
    (fun j q => W2 (ix2 j q)) (fun q => b2 (ix1 q)) (i 1)

theorem arrayOut_apply (N : Nat) (x : (⟨2, ![N, 512]⟩ : Shape).Idx → EReal) (W1 : (⟨2, ![512, 512]⟩ : Shape).Idx → EReal)
    (b1 : (⟨1, ![512]⟩ : Shape).Idx → EReal) (W2 : (⟨2, ![512, 768]⟩ : Shape).Idx → EReal)
    (b2 : (⟨1, ![768]⟩ : Shape).Idx → EReal) (r : Fin N) (q : Fin 768) :
    arrayOut N x W1 b1 W2 b2 (ix2 r q)
      = row (fun k => x (ix2 r k)) (fun k j => W1 (ix2 k j)) (fun j => b1 (ix1 j))
          (fun j q => W2 (ix2 j q)) (fun q => b2 (ix1 q)) q := rfl

/-- The host-operation arrangement IS that array. -/
theorem hostOut_eq (M : Nat) (x : FVec Ideal ⟨2, ![M, 512]⟩ .f32) (W1 : FVec Ideal ⟨2, ![512, 512]⟩ .f32)
    (b1 : FVec Ideal ⟨1, ![512]⟩ .f32) (W2 : FVec Ideal ⟨2, ![512, 768]⟩ .f32) (b2 : FVec Ideal ⟨1, ![768]⟩ .f32)
    (h1 : (⟨1, ![512]⟩ : Shape).BroadcastsInDim ⟨2, ![1, 512]⟩ (![1] : Fin 1 → Fin 2))
    (h2 : (⟨2, ![1, 512]⟩ : Shape).BroadcastsInDim ⟨2, ![M, 512]⟩ (![0, 1] : Fin 2 → Fin 2))
    (h3 : (⟨1, ![768]⟩ : Shape).BroadcastsInDim ⟨2, ![1, 768]⟩ (![1] : Fin 1 → Fin 2))
    (h4 : (⟨2, ![1, 768]⟩ : Shape).BroadcastsInDim ⟨2, ![M, 768]⟩ (![0, 1] : Fin 2 → Fin 2))
    (hs1 : (⟨0, ![]⟩ : Shape).BroadcastsInDim ⟨2, ![M, 512]⟩ (![] : Fin 0 → Fin 2))
    (hs2 : (⟨0, ![]⟩ : Shape).BroadcastsInDim ⟨2, ![M, 768]⟩ (![] : Fin 0 → Fin 2)) :
    hostOut M x W1 b1 W2 b2 h1 h2 h3 h4 hs1 hs2 = arrayOut M x W1 b1 W2 b2 := by
  funext i
  obtain ⟨r, q, rfl⟩ : ∃ (r : Fin M) (q : Fin 768), i = ix2 r q := ⟨i 0, i 1, eq_ix2 i⟩
  rw [hostOut_apply, arrayOut_apply]

/-! ## A block of rows against the whole array -/

/-- Row p of block T, as a row of the array: T · 1000 + p. -/
def rowOf (T : Nat) (hT : T < 100) (p : Fin 1000) : Fin 100000 := ⟨T * 1000 + p.val, by have := p.isLt; omega⟩

/-- A block of 1000 rows whose row p is row T · 1000 + p of the input array, computed against the whole weight
    arrays and the bias rows, is rows T · 1000 … T · 1000 + 999 of the output array. -/
theorem block_row (X : (⟨2, ![100000, 512]⟩ : Shape).Idx → EReal) (W1 : (⟨2, ![512, 512]⟩ : Shape).Idx → EReal)
    (b1 : (⟨1, ![512]⟩ : Shape).Idx → EReal) (W2 : (⟨2, ![512, 768]⟩ : Shape).Idx → EReal)
    (b2 : (⟨1, ![768]⟩ : Shape).Idx → EReal)
    (x0 : FVec Ideal ⟨2, ![1000, 512]⟩ .f32) (x1 : FVec Ideal ⟨2, ![512, 512]⟩ .f32)
    (x2 : FVec Ideal ⟨2, ![1, 512]⟩ .f32) (x3 : FVec Ideal ⟨2, ![512, 768]⟩ .f32) (x4 : FVec Ideal ⟨2, ![1, 768]⟩ .f32)
    (hlt : FTy.bits .bf16 < FTy.bits .f32)
    (hc1 : (⟨2, ![1, 512]⟩ : Shape).ShapeCasts ⟨2, ![1, 512]⟩)
    (hb1 : (⟨2, ![1, 512]⟩ : Shape).Broadcasts ⟨2, ![1000, 512]⟩)
    (hc2 : (⟨2, ![1, 768]⟩ : Shape).ShapeCasts ⟨2, ![1, 768]⟩)
    (hb2 : (⟨2, ![1, 768]⟩ : Shape).Broadcasts ⟨2, ![1000, 768]⟩)
    (T : Nat) (hT : T < 100)
    (h0 : ∀ (p : Fin 1000) (k : Fin 512), x0 (ix2 p k) = X (ix2 (rowOf T hT p) k))
    (h1 : ∀ (k j : Fin 512), x1 (ix2 k j) = W1 (ix2 k j))
    (h2 : ∀ j : Fin 512, x2 (ix2 (0 : Fin 1) j) = b1 (ix1 j))
    (h3 : ∀ (j : Fin 512) (q : Fin 768), x3 (ix2 j q) = W2 (ix2 j q))
    (h4 : ∀ q : Fin 768, x4 (ix2 (0 : Fin 1) q) = b2 (ix1 q))
    (p : Fin 1000) (q : Fin 768) :
    blockOut 1000 x0 x1 x2 x3 x4 hlt hc1 hb1 hc2 hb2 (ix2 p q)
      = arrayOut 100000 X W1 b1 W2 b2 (ix2 (rowOf T hT p) q) := by
  rw [blockOut_apply, arrayOut_apply]
  simp only [h0, h1, h2, h3, h4]

end Cert.Mlp

end
-- ==== Proof.KernelValue.lean ====
/-
  What the kernel computes: the output array after its run is, entry (r, q), the row function of row r of the first
  argument.

  The grid has 100 points. At point t the body is handed rows 1000 t … 1000 t + 999 of the input, the two weight
  arrays whole, and the two biases as one-row matrices (reshaped on the host before the launch); it stores one block
  of 1000 output rows, which is written back to rows 1000 t … 1000 t + 999 of the output. The stored block is the
  blocked arrangement of the perceptron, so the block written at point t is the restriction to those rows of ONE
  array of row functions; the 100 blocks cover every row (row r lies in block r / 1000), hence the output array is
  that array.
-/
import proofs.«119087_g65678639891186_cont_9to1_m_264_3_alg».proof.Proof.Gen.KernelIdeal.Value
import proofs.«119087_g65678639891186_cont_9to1_m_264_3_alg».proof.Proof.Spec

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's one stored value is the blocked arrangement of its five loaded blocks (the body's two product
    records are the plain 1000 × 512 by 512 × 512 and 1000 × 512 by 512 × 768 ones). -/
theorem pay_eq (x0 : Vec Ideal S1000x512 .f32) (x1 : Vec Ideal S512x512 .f32) (x2 : Vec Ideal S1x512 .f32)
    (x3 : Vec Ideal S512x768 .f32) (x4 : Vec Ideal S1x768 .f32) :
    k0_pay1 (F := Ideal) x0 x1 x2 x3 x4
      = Cert.Mlp.blockOut 1000 x0 x1 x2 x3 x4 bitsLt_bf16_f32 shapeCasts_S1x512_S1x512 broadcasts_S1x512_S1000x512
          shapeCasts_S1x768_S1x768 broadcasts_S1x768_S1000x768 := rfl

/-- The index maps over the grid: the input's and the output's block row is the point's number, every other block
    index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 100 := lt_of_lt_of_eq t.isLt N_0

/-- The first bias as the region finds it: the argument vector reshaped to one row. -/
theorem V_main_v0 (c : Dev nD) :
    (V m c main_v0 : S1x512.Idx → EReal) = shapeCast S1x512 (m ((c : Thread nD τ).loc main_arg2)) shapeCasts_S512_S1x512 := by
  dsimp only [Gen.V, Gen.hostOps0]; after_results; rfl

/-- The second bias as the region finds it. -/
theorem V_main_v1 (c : Dev nD) :
    (V m c main_v1 : S1x768.Idx → EReal) = shapeCast S1x768 (m ((c : Thread nD τ).loc main_arg4)) shapeCasts_S768_S1x768 := by
  dsimp only [Gen.V, Gen.hostOps0]; after_results; rfl

/-- The array of row functions of the five arguments as launched. -/
abbrev G (c : Dev nD) : S100000x768.Idx → EReal :=
  Cert.Mlp.arrayOut 100000 (m ((c : Thread nD τ).loc main_arg0)) (m ((c : Thread nD τ).loc main_arg1))
    (m ((c : Thread nD τ).loc main_arg2)) (m ((c : Thread nD τ).loc main_arg3)) (m ((c : Thread nD τ).loc main_arg4))

/-- What point t writes back is block t of that array: the input block's row p is row 1000 t + p of the input, the
    weight blocks are the whole weight arrays, the bias blocks the reshaped biases' one row. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero hz]
  simp only [View.ld_unit_zero (S := S1000x512) hz, View.ld_unit_zero (S := S512x512) hz,
    View.ld_unit_zero (S := S1x512) hz, View.ld_unit_zero (S := S512x768) hz, View.ld_unit_zero (S := S1x768) hz]
  rw [pay_eq]
  obtain ⟨e00, e01, e10, e11, e20, e21, e30, e31, e40, e41, e50, e51⟩ := idx_facts t
  funext y
  obtain ⟨p, q, rfl⟩ : ∃ (p : Fin 1000) (q : Fin 768), y = ix2 p q := ⟨y 0, y 1, eq_ix2 y⟩
  have hemb : ((cfg0.win 5).blk t).view.emb (ix2 p q) = ix2 (Cert.Mlp.rowOf t.val (point_lt t) p) q := by
    funext a; apply Fin.ext
    match a with
    | ⟨0, _⟩ => show win0_5.index t (0 : Fin 2) * 1000 + 1 * p.val = t.val * 1000 + p.val; omega
    | ⟨1, _⟩ => show win0_5.index t (1 : Fin 2) * 768 + 1 * q.val = q.val; omega
  show Cert.Mlp.blockOut 1000 (iblk m c 0 t) (iblk m c 1 t) (iblk m c 2 t) (iblk m c 3 t) (iblk m c 4 t)
      bitsLt_bf16_f32 shapeCasts_S1x512_S1x512 broadcasts_S1x512_S1000x512 shapeCasts_S1x768_S1x768
      broadcasts_S1x768_S1000x768 (ix2 p q)
    = G m c (((cfg0.win 5).blk t).view.emb (ix2 p q))
  rw [hemb]
  refine Cert.Mlp.block_row _ _ _ _ _ (iblk m c 0 t) (iblk m c 1 t) (iblk m c 2 t) (iblk m c 3 t) (iblk m c 4 t)
    _ _ _ _ _ t.val (point_lt t) ?_ ?_ ?_ ?_ ?_ p q
  · intro p k
    show V m c main_arg0 (((cfg0.win 0).blk t).view.emb (ix2 p k)) = _
    rw [V_main_arg0]
    refine congrArg _ ?_
    funext a; apply Fin.ext
    match a with
    | ⟨0, _⟩ => show win0_0.index t (0 : Fin 2) * 1000 + 1 * p.val = t.val * 1000 + p.val; omega
    | ⟨1, _⟩ => show win0_0.index t (1 : Fin 2) * 512 + 1 * k.val = k.val; omega
  · intro k j
    show V m c main_arg1 (((cfg0.win 1).blk t).view.emb (ix2 k j)) = _
    rw [V_main_arg1]
    refine congrArg _ ?_
    funext a; apply Fin.ext
    match a with
    | ⟨0, _⟩ => show win0_1.index t (0 : Fin 2) * 512 + 1 * k.val = k.val; omega
    | ⟨1, _⟩ => show win0_1.index t (1 : Fin 2) * 512 + 1 * j.val = j.val; omega
  · intro j
    show V m c main_v0 (((cfg0.win 2).blk t).view.emb (ix2 (0 : Fin 1) j)) = _
    have he : ((cfg0.win 2).blk t).view.emb (ix2 (0 : Fin 1) j) = ix2 (0 : Fin 1) j := by
      funext a; apply Fin.ext
      match a with
      | ⟨0, _⟩ => show win0_2.index t (0 : Fin 2) * 1 + 1 * 0 = 0; omega
      | ⟨1, _⟩ => show win0_2.index t (1 : Fin 2) * 512 + 1 * j.val = j.val; omega
    rw [he, V_main_v0, shapeCast_a_1a_apply]
  · intro j q
    show V m c main_arg3 (((cfg0.win 3).blk t).view.emb (ix2 j q)) = _
    rw [V_main_arg3]
    refine congrArg _ ?_
    funext a; apply Fin.ext
    match a with
    | ⟨0, _⟩ => show win0_3.index t (0 : Fin 2) * 512 + 1 * j.val = j.val; omega
    | ⟨1, _⟩ => show win0_3.index t (1 : Fin 2) * 768 + 1 * q.val = q.val; omega
  · intro q
    show V m c main_v1 (((cfg0.win 4).blk t).view.emb (ix2 (0 : Fin 1) q)) = _
    have he : ((cfg0.win 4).blk t).view.emb (ix2 (0 : Fin 1) q) = ix2 (0 : Fin 1) q := by
      funext a; apply Fin.ext
      match a with
      | ⟨0, _⟩ => show win0_4.index t (0 : Fin 2) * 1 + 1 * 0 = 0; omega
      | ⟨1, _⟩ => show win0_4.index t (1 : Fin 2) * 768 + 1 * q.val = q.val; omega
    rw [he, V_main_v1, shapeCast_a_1a_apply]

/-- An index of the output array is in point t's block iff each coordinate is in the block's range on its axis. -/
theorem mem_blk (t : Fin cfg0.N) (i : S100000x768.Idx) :
    i ∈ ((cfg0.win 5).blk t).view.set ↔ ∀ a : Fin 2, win0_5.index t a * S1000x768.size a ≤ (i a).val
      ∧ (i a).val < win0_5.index t a * S1000x768.size a + S1000x768.size a := by
  show i ∈ ((View.whole main_v2).slice (win0_5.rect t)).set ↔ _
  rw [View.set_slice_whole, Rect.mem_set_unit]
  exact Iff.rfl

/-- Every index of the output array is in some point's block: row r is in block r / 1000. -/
theorem cover (i : S100000x768.Idx) :
    ∃ t : Fin cfg0.N, (cfg0.win 5).flush t = true ∧ i ∈ ((cfg0.win 5).blk t).view.set := by
  have hi0 : (i 0).val < 100000 := (i 0).isLt
  have hi1 : (i 1).val < 768 := (i 1).isLt
  have hlt : (i 0).val / 1000 < cfg0.N := lt_of_lt_of_eq (by omega : (i 0).val / 1000 < 100) N_0.symm
  obtain ⟨e00, e01, e10, e11, e20, e21, e30, e31, e40, e41, e50, e51⟩ := idx_facts ⟨(i 0).val / 1000, hlt⟩
  have e50' : win0_5.index ⟨(i 0).val / 1000, hlt⟩ (0 : Fin 2) = (i 0).val / 1000 := e50
  refine ⟨⟨(i 0).val / 1000, hlt⟩, flush0_5 _, ?_⟩
  rw [mem_blk]
  intro a
  match a with
  | ⟨0, _⟩ =>
    show win0_5.index ⟨(i 0).val / 1000, hlt⟩ (0 : Fin 2) * 1000 ≤ (i 0).val
      ∧ (i 0).val < win0_5.index ⟨(i 0).val / 1000, hlt⟩ (0 : Fin 2) * 1000 + 1000
    omega
  | ⟨1, _⟩ =>
    show win0_5.index ⟨(i 0).val / 1000, hlt⟩ (1 : Fin 2) * 768 ≤ (i 1).val
      ∧ (i 1).val < win0_5.index ⟨(i 0).val / 1000, hlt⟩ (1 : Fin 2) * 768 + 768
    omega

/-- The output array after the run is the array of row functions. -/
theorem final (c : Dev nD) : (dats m 0 c).arrAt 5 cfg0.N = G m c :=
  (dats m 0 c).arrAt_eq_of_cover 5 (G m c) (fun t _ => flushed_eq m c t) cover

/-- Every weakly fair execution of the kernel's program terminates with the output at that array and the arguments
    as launched. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.KValue

end
-- ==== Proof.RefRun.lean ====
/-
  The host program of the second arrangement as a straight line of 25 operations, and its run.

  The program calls a leaky rectifier, which in turn calls a select; a call executes the callee's body on the
  caller's buffers, so with the two bodies written out at their call sites the program is one list: the first
  layer (dot product, the bias broadcast in two steps, the sum), the slope constant, the rectifier's seven
  operations (zero, its broadcast, the comparison, the slope converted and broadcast, the product, the select), the
  second layer (four operations), and the logistic spelt out (negate, exponential, one, its broadcast, the sum, one
  again, its broadcast, the quotient). Every weakly fair execution of that list terminates, and each buffer then
  holds the fold of the operations over the launch contents.
-/
import proofs.«119087_g65678639891186_cont_9to1_m_264_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the callees' bodies at their call sites. -/
abbrev ops : List (HloOp τ sig (Elt F)) :=
  [ binary main_arg0 main_arg1 main_v0 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S100000x512 ![0, 1] bcast_S1x512_S100000x512_0_1 : (⟨S1x512, .f32⟩ : BufTy).Contents (Elt F) → (⟨S100000x512, .f32⟩ : BufTy).Contents (Elt F)),
    binary main_v0 main_v2 main_v3 (addf : (⟨S100000x512, .f32⟩ : BufTy).Contents (Elt F) → (⟨S100000x512, .f32⟩ : BufTy).Contents (Elt F) → (⟨S100000x512, .f32⟩ : BufTy).Contents (Elt F)),
    nullary main_cst (constant S_ .f32 0x3C23D70A#32),
    TRef.nullary main_call0.cst (constant S_ .f32 0x00000000#32),
    TRef.unary main_call0.cst main_call0.v0 (broadcastInDim S100000x512 ![] bcast_S_S100000x512),
    TRef.binary (.of main_v3) main_call0.v0 main_call0.v1 (cmpf .oge),
    TRef.unary (.of main_cst) main_call0.v2 id,
    TRef.unary main_call0.v2 main_call0.v3 (broadcastInDim S100000x512 ![] bcast_S_S100000x512),
    TRef.binary main_call0.v3 (.of main_v3) main_call0.v4 mulf,
    TRef.ternary main_call0.v1 (.of main_v3) main_call0.v4 main_call0.call0.v0 select,
    binary main_v4 main_arg3 main_v5 ((fun l r => Host.dotGeneral dot_S100000x512_S512x768_S100000x768_1_0_0_1_n_n none l r) : (⟨S100000x512, .f32⟩ : BufTy).Contents (Elt F) → (⟨S512x768, .f32⟩ : BufTy).Contents (Elt F) → (⟨S100000x768, .f32⟩ : BufTy).Contents (Elt F)),
    unary main_arg4 main_v6 (broadcastInDim S1x768 ![1] bcast_S768_S1x768_1 : (⟨S768, .f32⟩ : BufTy).Contents (Elt F) → (⟨S1x768, .f32⟩ : BufTy).Contents (Elt F)),
    unary main_v6 main_v7 (broadcastInDim S100000x768 ![0, 1] bcast_S1x768_S100000x768_0_1 : (⟨S1x768, .f32⟩ : BufTy).Contents (Elt F) → (⟨S100000x768, .f32⟩ : BufTy).Contents (Elt F)),
    binary main_v5 main_v7 main_v8 (addf : (⟨S100000x768, .f32⟩ : BufTy).Contents (Elt F) → (⟨S100000x768, .f32⟩ : BufTy).Contents (Elt F) → (⟨S100000x768, .f32⟩ : BufTy).Contents (Elt F)),
    unary main_v8 main_v9 (Host.negf : (⟨S100000x768, .f32⟩ : BufTy).Contents (Elt F) → (⟨S100000x768, .f32⟩ : BufTy).Contents (Elt F)),
    unary main_v9 main_v10 (Host.exp : (⟨S100000x768, .f32⟩ : BufTy).Contents (Elt F) → (⟨S100000x768, .f32⟩ : BufTy).Contents (Elt F)),
    nullary main_cst_0 (constant S_ .f32 0x3F800000#32),
    unary main_cst_0 main_v11 (broadcastInDim S100000x768 ![] bcast_S_S100000x768 : (⟨S_, .f32⟩ : BufTy).Contents (Elt F) → (⟨S100000x768, .f32⟩ : BufTy).Contents (Elt F)),
    binary main_v11 main_v10 main_v12 (addf : (⟨S100000x768, .f32⟩ : BufTy).Contents (Elt F) → (⟨S100000x768, .f32⟩ : BufTy).Contents (Elt F) → (⟨S100000x768, .f32⟩ : BufTy).Contents (Elt F)),
    nullary main_cst_1 (constant S_ .f32 0x3F800000#32),
    unary main_cst_1 main_v13 (broadcastInDim S100000x768 ![] bcast_S_S100000x768 : (⟨S_, .f32⟩ : BufTy).Contents (Elt F) → (⟨S100000x768, .f32⟩ : BufTy).Contents (Elt F)),
    binary main_v13 main_v12 main_v14 (Host.divf : (⟨S100000x768, .f32⟩ : BufTy).Contents (Elt F) → (⟨S100000x768, .f32⟩ : BufTy).Contents (Elt F) → (⟨S100000x768, .f32⟩ : BufTy).Contents (Elt F)) ]

set_option maxRecDepth 1024 in
/-- The program is that list run in order: the two callees unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub ..,
    unary_bufs_sub .., unary_bufs_sub .., nullary_bufs_sub .., unary_bufs_sub .., binary_bufs_sub ..,
    nullary_bufs_sub .., unary_bufs_sub .., binary_bufs_sub ..⟩

/-- Every weakly fair execution of the program terminates, each buffer then at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the host program computes: after its run the result buffer holds, entry (r, q), the row function of row r of
  the first argument: the fold of the 25 operations at the result buffer is, operation by operation, the
  host-operation arrangement of the perceptron (the typed references around the rectifier's values are the identity
  on contents, and the program's two dot-product records are the plain M × K by K × N ones), and that arrangement
  is the array of row functions. The five argument buffers are written by no operation.
-/
import proofs.«119087_g65678639891186_cont_9to1_m_264_3_alg».proof.Proof.RefRun
import proofs.«119087_g65678639891186_cont_9to1_m_264_3_alg».proof.Proof.Spec

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

/-- The fold at the result buffer is the array of row functions of the argument buffers' contents. -/
theorem out_eq (V : Valuation τ sig (Elt Ideal)) :
    after (ops (F := Ideal)) V (main_v14 : DevRef τ sig)
      = Cert.Mlp.arrayOut 100000 (V (main_arg0 : DevRef τ sig)) (V (main_arg1 : DevRef τ sig))
          (V (main_arg2 : DevRef τ sig)) (V (main_arg3 : DevRef τ sig)) (V (main_arg4 : DevRef τ sig)) := by
  refine Eq.trans ?_ (Cert.Mlp.hostOut_eq 100000 (V (main_arg0 : DevRef τ sig)) (V (main_arg1 : DevRef τ sig))
    (V (main_arg2 : DevRef τ sig)) (V (main_arg3 : DevRef τ sig)) (V (main_arg4 : DevRef τ sig))
    bcast_S512_S1x512_1 bcast_S1x512_S100000x512_0_1 bcast_S768_S1x768_1 bcast_S1x768_S100000x768_0_1
    bcast_S_S100000x512 bcast_S_S100000x768)
  after_results
  rfl

/-- Every weakly fair execution of the host program terminates with the result buffer at that array and the
    arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = Cert.Mlp.arrayOut 100000 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (out_eq (launchContents m c)),
      (h c main_arg0).trans (by after_results),
      (h c main_arg1).trans (by after_results),
      (h c main_arg2).trans (by after_results),
      (h c main_arg3).trans (by after_results),
      (h c main_arg4).trans (by after_results)⟩)
    (run_fold m ρ)

end Cert.ReferenceIdeal.RefValue

end
-- ==== Proof.lean ====
/-
  A fused two-layer perceptron, one pass over the rows, against the plain two-layer perceptron.

  Both programs compute, for every row x of the 100000 × 512 input and every output column q,

      σ( Σ_j  ℓ( Σ_k x_k · W₁[k, j] + b₁[j] ) · W₂[j, q]  +  b₂[q] ),

  ℓ the leaky rectifier with the single-precision slope word nearest 1/100 (the same word on both sides), σ the
  logistic. The kernel does it 1000 rows at a time over a grid of 100 points, with block products into zero
  accumulators (its operands' changes of float format are the identity at the extended reals) and the logistic as
  one operation; the reference does it for all rows at once with two general dot products and the logistic spelt
  as 1 / (1 + e^(-o)), which is the extended reals' logistic by definition. A block product and a general dot
  product with one contracted axis are the same finite sum, and every other operation acts entry by entry, so the
  two results agree entry by entry with no further law of arithmetic: the precondition is not used.

  Proof/Spec.lean has the row function and both arrangements read at an entry; Proof/KernelValue.lean the kernel's
  output array after its run (blocks to array); Proof/RefRun.lean and Proof/RefValue.lean the reference's run and
  its result. The kernel's idealization rewrote nothing, so its preservation claim is the true proposition.
-/
import proofs.«119087_g65678639891186_cont_9to1_m_264_3_alg».proof.Defs
import proofs.«119087_g65678639891186_cont_9to1_m_264_3_alg».proof.Proof.Gen.Kernel
import proofs.«119087_g65678639891186_cont_9to1_m_264_3_alg».proof.Proof.Gen.Kernel.Skeleton
import proofs.«119087_g65678639891186_cont_9to1_m_264_3_alg».proof.Proof.Gen.Kernel.Launch
import proofs.«119087_g65678639891186_cont_9to1_m_264_3_alg».proof.Proof.Gen.Kernel.Points
import proofs.«119087_g65678639891186_cont_9to1_m_264_3_alg».proof.Proof.Gen.Kernel.Frame
import proofs.«119087_g65678639891186_cont_9to1_m_264_3_alg».proof.Proof.Gen.KernelIdeal
import proofs.«119087_g65678639891186_cont_9to1_m_264_3_alg».proof.Proof.Gen.KernelIdeal.Skeleton
import proofs.«119087_g65678639891186_cont_9to1_m_264_3_alg».proof.Proof.Gen.KernelIdeal.Launch
import proofs.«119087_g65678639891186_cont_9to1_m_264_3_alg».proof.Proof.Gen.KernelIdeal.Points
import proofs.«119087_g65678639891186_cont_9to1_m_264_3_alg».proof.Proof.Gen.KernelIdeal.Frame
import proofs.«119087_g65678639891186_cont_9to1_m_264_3_alg».proof.Proof.Gen.ReferenceIdeal
import proofs.«119087_g65678639891186_cont_9to1_m_264_3_alg».proof.Proof.Gen.Pre_finite_inputs
import proofs.«119087_g65678639891186_cont_9to1_m_264_3_alg».proof.Proof.Gen.KernelIdeal.Value
import proofs.«119087_g65678639891186_cont_9to1_m_264_3_alg».proof.Proof.KernelValue
import proofs.«119087_g65678639891186_cont_9to1_m_264_3_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the five arguments both programs end with the array of row functions of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
